-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v16_0)) (v2 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v16_0) = v1 c
          ∧ r.2.mem ((c.tc : Thread Cert.KernelIdeal.nD Cert.KernelIdeal.τ).loc Cert.KernelIdeal.main_v16_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x512 : Shape := ⟨2, ![2048, 512]⟩
abbrev S2048x64x256 : Shape := ⟨3, ![2048, 64, 256]⟩
abbrev S256x256 : Shape := ⟨2, ![256, 256]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S2048x64x256 : S_.BroadcastsInDim S2048x64x256 (![] : Fin 0 → Fin S2048x64x256.rank)
  reducesTo_S2048x64x256_S_d0_1_2 : S2048x64x256.ReducesTo [0, 1, 2] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg4 : FVec F S256x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  main_v23

def fn {F : FTy → Type} [FloatOps F] (main_arg0 : FVec F S2048x512 .f32) (main_arg1 : FVec F S2048x64x256 .f32) (main_arg2 : FVec F S2048x64x256 .f32) (main_arg3 : FVec F S256x256 .f32) (main_arg4 : FVec F S256x256 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S2048x64x256 .f32 := Host.absf main_arg1
  let main_cst_0 : FVec F S_ .f32 := constant S_ .f32 0x7F800000#32
  let main_v5 : FVec F S2048x64x256 .f32 := broadcastInDim S2048x64x256 ![] bcast_S_S2048x64x256 main_cst_0
  let main_v6 : IVec S2048x64x256 1 := cmpf .olt main_v4 main_v5
  let main_c_1 : IVec S_ 1 := constantI S_ 1 1#1
  let main_v7 : IVec S_ 1 := (fun x v => Host.reduce IntOp.andi x v reducesTo_S2048x64x256_S_d0_1_2 h_S_) main_v6 main_c_1
  let main_v8 : IVec S_ 1 := andi main_v3 main_v7
  let main_v9 : FVec F S2048x64x256 .f32 := Host.absf main_arg2
  let main_cst_2 : FVec F S_ .f32 := constant S_ .f32 0x7F800000#32
  let main_v10 : FVec F S2048x64x256 .f32 := broadcastInDim S2048x64x256 ![] bcast_S_S2048x64x256 main_cst_2
  let main_v11 : IVec S2048x64x256 1 := cmpf .olt main_v9 main_v10
  let main_c_3 : IVec S_ 1 := constantI S_ 1 1#1
  let main_v12 : IVec S_ 1 := (fun x v => Host.reduce IntOp.andi x v reducesTo_S2048x64x256_S_d0_1_2 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S2048x512 : Shape := ⟨2, ![2048, 512]⟩
abbrev S2048x64x256 : Shape := ⟨3, ![2048, 64, 256]⟩
abbrev S256x256 : Shape := ⟨2, ![256, 256]⟩
abbrev S2048x256 : Shape := ⟨2, ![2048, 256]⟩
abbrev S1x64x256 : Shape := ⟨3, ![1, 64, 256]⟩
abbrev S64x256 : Shape := ⟨2, ![64, 256]⟩
abbrev S256x2048 : Shape := ⟨2, ![256, 2048]⟩
abbrev S64x2048 : Shape := ⟨2, ![64, 2048]⟩
abbrev S_ : Shape := ⟨0, ![]⟩
abbrev S2048 : Shape := ⟨1, ![2048]⟩
abbrev S2048x1 : Shape := ⟨2, ![2048, 1]⟩
abbrev S2048x64 : Shape := ⟨2, ![2048, 64]⟩
abbrev S32x256 : Shape := ⟨2, ![32, 256]⟩
abbrev S32x64x256 : Shape := ⟨3, ![32, 64, 256]⟩
abbrev S32x1x256 : Shape := ⟨3, ![32, 1, 256]⟩

abbrev nBuf : Space → Nat
  | .hbm => 24
  | .vmem => 12
  | .smem => 0
  | _ => 0

abbrev bufTy : (tb : Table) → Fin (tcTables nBuf tb) → BufTy
  | .hbm, ⟨0, _⟩ => ⟨S2048x512, .f32⟩
  | .hbm, ⟨1, _⟩ => ⟨S2048x64x256, .f32⟩
  | .hbm, ⟨2, _⟩ => ⟨S2048x64x256, .f32⟩
  | .hbm, ⟨3, _⟩ => ⟨S256x256, .f32⟩
  | .hbm, ⟨4, _⟩ => ⟨S256x256, .f32⟩
  | .hbm, ⟨5, _⟩ => ⟨S2048x256, .f32⟩
  | .hbm, ⟨6, _⟩ => ⟨S2048x256, .f32⟩
  | .hbm, ⟨7, _⟩ => ⟨S1x64x256, .f32⟩
  | .hbm, ⟨8, _⟩ => ⟨S64x256, .f32⟩
  | .hbm, ⟨9, _⟩ => ⟨S1x64x256, .f32⟩
  | .hbm, ⟨10, _⟩ => ⟨S64x256, .f32⟩
  | .hbm, ⟨11, _⟩ => ⟨S256x2048, .f32⟩
  | .hbm, ⟨12, _⟩ => ⟨S64x2048, .f32⟩
  | .hbm, ⟨13, _⟩ => ⟨S64x2048, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S2048x64, .f32⟩
  | .hbm, ⟨18, _⟩ => ⟨S64x2048, .f32⟩
  | .hbm, ⟨19, _⟩ => ⟨S64x2048, .f32⟩
  | .hbm, ⟨20, _⟩ => ⟨S2048x64, .f32⟩
  | .hbm, ⟨21, _⟩ => ⟨S2048x256, .f32⟩
  | .hbm, ⟨22, _⟩ => ⟨S2048x64x256, .f32⟩
  | .hbm, ⟨23, _⟩ => ⟨S2048x64x256, .f32⟩
  | .local _ .vmem, ⟨0, _⟩ => ⟨S32x256, .f32⟩
  | .local _ .vmem, ⟨1, _⟩ => ⟨S32x256, .f32⟩
  | .local _ .vmem, ⟨2, _⟩ => ⟨S32x64x256, .f32⟩
  | .local _ .vmem, ⟨3, _⟩ => ⟨S32x64x256, .f32⟩
  | .local _ .vmem, ⟨4, _⟩ => ⟨S32x64x256, .f32⟩
  | .local _ .vmem, ⟨5, _⟩ => ⟨S32x64x256, .f32⟩
  | .local _ .vmem, ⟨6, _⟩ => ⟨S256x256, .f32⟩
  | .local _ .vmem, ⟨7, _⟩ => ⟨S256x256, .f32⟩
  | .local _ .vmem, ⟨8, _⟩ => ⟨S32x64x256, .f32⟩
  | .local _ .vmem, ⟨9, _⟩ => ⟨S32x64x256, .f32⟩
  | .local _ .vmem, ⟨10, _⟩ => ⟨S32x64x256, .f32⟩
  | .local _ .vmem, ⟨11, _⟩ => ⟨S32x64x256, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16_0 : Ref sig .tc := ⟨.hbm, 22, rfl⟩
abbrev main_v16_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32x64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2048x512_S2048x256_0_0 : S2048x512.Slices ![0, 0] S2048x256
  slices_S2048x512_S2048x256_0_256 : S2048x512.Slices ![0, 256] S2048x256
  slices_S2048x64x256_S1x64x256_0_0_0 : S2048x64x256.Slices ![0, 0, 0] S1x64x256
  shapeCasts_S1x64x256_S64x256 : S1x64x256.ShapeCasts S64x256
  transposes_S2048x256_S256x2048_1_0 : S2048x256.Transposes [1, 0] S256x2048
  reducesTo_S64x2048_S2048_d0 : S64x2048.ReducesTo [0] S2048
  h_S_ : 0 < S_.numel
  bcast_S2048_S2048x1_0 : S2048.BroadcastsInDim S2048x1 (![0] : Fin 1 → Fin S2048x1.rank)
  bcast_S2048x1_S2048x64_0_1 : S2048x1.BroadcastsInDim S2048x64 (![0, 1] : Fin 2 → Fin S2048x64.rank)
  shapeCasts_S2048x64_S64x2048 : S2048x64.ShapeCasts S64x2048
  transposes_S64x2048_S2048x64_1_0 : S64x2048.Transposes [1, 0] S2048x64
  inb_S32x256_S32x256_0_0 : ∀ a, (![0, 0] : Fin 2 → Nat) a + S32x256.size a ≤ S32x256.size a
  h_S32x256 : 0 < S32x256.numel
  shapeCasts_S32x256_S32x256 : S32x256.ShapeCasts S32x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S32x64x256_S32x64x256_0_0_0 : ∀ a, (![0, 0, 0] : Fin 3 → Nat) a + S32x64x256.size a ≤ S32x64x256.size a
  h_S32x64x256 : 0 < S32x64x256.numel
  rotates_S32x64x256_d1 : S32x64x256.Rotates 1 none
  iota_S32x64x256_d1_w32 : S32x64x256.Iotas .tc 32 [1]
  shapeCasts_S32x256_S32x1x256 : S32x256.ShapeCasts S32x1x256
  shapeCasts_S32x1x256_S32x1x256 : S32x1x256.ShapeCasts S32x1x256
  broadcasts_S32x1x256_S32x64x256 : S32x1x256.Broadcasts S32x64x256
  dot_S64x256_S256x2048_S64x2048_1_0_0_1_n_n_wf : DotDims.WF S64x256 S256x2048 S64x2048 [1] [0] [0] [1] [] []
  dot_S2048x64_S64x256_S2048x256_1_0_0_1_n_n_wf : DotDims.WF S2048x64 S64x256 S2048x256 [1] [0] [0] [1] [] []
  dot_S32x256_S256x256_S32x256_1_0_0_1_n_n_wf : DotDims.WF S32x256 S256x256 S32x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256.size a ≤ S2048x256.size a
  hwx0_0 : ∀ i : grid0.Coords, EltTy.bits .f32 = 32 ∨ (Rect.block (s := S2048x256) S32x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x64x256.size a ≤ S2048x64x256.size a
  hwx0_1 : ∀ i : grid0.Coords, EltTy.bits .f32 = 32 ∨ (Rect.block (s := S2048x64x256) S32x64x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x64x256.size a ≤ S2048x64x256.size a
  hwx0_2 : ∀ i : grid0.Coords, EltTy.bits .f32 = 32 ∨ (Rect.block (s := S2048x64x256) S32x64x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x64x256.size a ≤ S2048x64x256.size a
  hwx0_5 : ∀ i : grid0.Coords, EltTy.bits .f32 = 32 ∨ (Rect.block (s := S2048x64x256) S32x64x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S32x64x256.size a ≤ S2048x64x256.size a
  hwx0_6 : ∀ i : grid0.Coords, EltTy.bits .f32 = 32 ∨ (Rect.block (s := S2048x64x256) S32x64x256.size (cc0_transform_6 i) (hinb0_6 i)).WholeWords (EltTy.packing .f32)

variable [Facts₀]

def dot_S64x256_S256x2048_S64x2048_1_0_0_1_n_n : DotDims S64x256 S256x2048 S64x2048 where
  lhsContracting := [1]
  rhsContracting := [0]
  lhsNonContracting := [0]
  rhsNonContracting := [1]
  lhsBatch := []
  rhsBatch := []
  wf := dot_S64x256_S256x2048_S64x2048_1_0_0_1_n_n_wf
def dot_S2048x64_S64x256_S2048x256_1_0_0_1_n_n : DotDims S2048x64 S64x256 S2048x256 where
  lhsContracting := [1]
  rhsContracting := [0]
  lhsNonContracting := [0]
  rhsNonContracting := [1]
  lhsBatch := []
  rhsBatch := []
  wf := dot_S2048x64_S64x256_S2048x256_1_0_0_1_n_n_wf
def dot_S32x256_S256x256_S32x256_1_0_0_1_n_n : DotDims S32x256 S256x256 S32x256 where
  lhsContracting := [1]
  rhsContracting := [0]
  lhsNonContracting := [0]
  rhsNonContracting := [1]
  lhsBatch := []
  rhsBatch := []
  wf := dot_S32x256_S256x256_S32x256_1_0_0_1_n_n_wf

abbrev win0_0 : Pipeline.Window sig grid0 :=
  Pipeline.Window.ofSpec (Memref.whole main_v0) S32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x64x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x64x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16_0) S32x64x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v16_1) S32x64x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2048x512 : Shape := ⟨2, ![2048, 512]⟩
abbrev S2048x64x256 : Shape := ⟨3, ![2048, 64, 256]⟩
abbrev S256x256 : Shape := ⟨2, ![256, 256]⟩
abbrev S2048x256 : Shape := ⟨2, ![2048, 256]⟩
abbrev S1x64x256 : Shape := ⟨3, ![1, 64, 256]⟩
abbrev S64x256 : Shape := ⟨2, ![64, 256]⟩
abbrev S256x2048 : Shape := ⟨2, ![256, 2048]⟩
abbrev S64x2048 : Shape := ⟨2, ![64, 2048]⟩
abbrev S_ : Shape := ⟨0, ![]⟩
abbrev S2048 : Shape := ⟨1, ![2048]⟩
abbrev S2048x1 : Shape := ⟨2, ![2048, 1]⟩
abbrev S2048x64 : Shape := ⟨2, ![2048, 64]⟩
abbrev S2048x63x256 : Shape := ⟨3, ![2048, 63, 256]⟩
abbrev S2048x1x256 : Shape := ⟨3, ![2048, 1, 256]⟩

abbrev nBuf : Space → Nat
  | .hbm => 30
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x64x256, .f32⟩
  | .hbm, ⟨2, _⟩ => ⟨S2048x64x256, .f32⟩
  | .hbm, ⟨3, _⟩ => ⟨S256x256, .f32⟩
  | .hbm, ⟨4, _⟩ => ⟨S256x256, .f32⟩
  | .hbm, ⟨5, _⟩ => ⟨S2048x256, .f32⟩
  | .hbm, ⟨6, _⟩ => ⟨S2048x256, .f32⟩
  | .hbm, ⟨7, _⟩ => ⟨S1x64x256, .f32⟩
  | .hbm, ⟨8, _⟩ => ⟨S64x256, .f32⟩
  | .hbm, ⟨9, _⟩ => ⟨S1x64x256, .f32⟩
  | .hbm, ⟨10, _⟩ => ⟨S64x256, .f32⟩
  | .hbm, ⟨11, _⟩ => ⟨S256x2048, .f32⟩
  | .hbm, ⟨12, _⟩ => ⟨S64x2048, .f32⟩
  | .hbm, ⟨13, _⟩ => ⟨S64x2048, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S2048x64, .f32⟩
  | .hbm, ⟨18, _⟩ => ⟨S64x2048, .f32⟩
  | .hbm, ⟨19, _⟩ => ⟨S64x2048, .f32⟩
  | .hbm, ⟨20, _⟩ => ⟨S2048x64, .f32⟩
  | .hbm, ⟨21, _⟩ => ⟨S2048x256, .f32⟩
  | .hbm, ⟨22, _⟩ => ⟨S2048x256, .f32⟩
  | .hbm, ⟨23, _⟩ => ⟨S2048x256, .f32⟩
  | .hbm, ⟨24, _⟩ => ⟨S2048x63x256, .f32⟩
  | .hbm, ⟨25, _⟩ => ⟨S2048x1x256, .f32⟩
  | .hbm, ⟨26, _⟩ => ⟨S2048x64x256, .f32⟩
  | .hbm, ⟨27, _⟩ => ⟨S2048x63x256, .f32⟩
  | .hbm, ⟨28, _⟩ => ⟨S2048x1x256, .f32⟩
  | .hbm, ⟨29, _⟩ => ⟨S2048x64x256, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]

class Facts₀ : Prop where
  slices_S2048x512_S2048x256_0_0 : S2048x512.Slices ![0, 0] S2048x256
  slices_S2048x512_S2048x256_0_256 : S2048x512.Slices ![0, 256] S2048x256
  slices_S2048x64x256_S1x64x256_0_0_0 : S2048x64x256.Slices ![0, 0, 0] S1x64x256
  shapeCasts_S1x64x256_S64x256 : S1x64x256.ShapeCasts S64x256
  transposes_S2048x256_S256x2048_1_0 : S2048x256.Transposes [1, 0] S256x2048
  reducesTo_S64x2048_S2048_d0 : S64x2048.ReducesTo [0] S2048
  h_S_ : 0 < S_.numel
  bcast_S2048_S2048x1_0 : S2048.BroadcastsInDim S2048x1 (![0] : Fin 1 → Fin S2048x1.rank)
  bcast_S2048x1_S2048x64_0_1 : S2048x1.BroadcastsInDim S2048x64 (![0, 1] : Fin 2 → Fin S2048x64.rank)
  shapeCasts_S2048x64_S64x2048 : S2048x64.ShapeCasts S64x2048
  transposes_S64x2048_S2048x64_1_0 : S64x2048.Transposes [1, 0] S2048x64
  slices_S2048x64x256_S2048x63x256_0_1_0 : S2048x64x256.Slices ![0, 1, 0] S2048x63x256
  bcast_S2048x256_S2048x1x256_0_2 : S2048x256.BroadcastsInDim S2048x1x256 (![0, 2] : Fin 2 → Fin S2048x1x256.rank)
  concatenates_S2048x63x256_S2048x1x256_S2048x64x256_d1 : Shape.Concatenates [S2048x63x256, S2048x1x256] S2048x64x256 1
  dot_S64x256_S256x2048_S64x2048_1_0_0_1_n_n_wf : DotDims.WF S64x256 S256x2048 S64x2048 [1] [0] [0] [1] [] []
  dot_S2048x64_S64x256_S2048x256_1_0_0_1_n_n_wf : DotDims.WF S2048x64 S64x256 S2048x256 [1] [0] [0] [1] [] []
  dot_S2048x256_S256x256_S2048x256_1_0_0_1_n_n_wf : DotDims.WF S2048x256 S256x256 S2048x256 [1] [0] [0] [1] [] []

variable [Facts₀]

def dot_S64x256_S256x2048_S64x2048_1_0_0_1_n_n : DotDims S64x256 S256x2048 S64x2048 where
  lhsContracting := [1]
  rhsContracting := [0]
  lhsNonContracting := [0]
  rhsNonContracting := [1]
  lhsBatch := []
  rhsBatch := []
  wf := dot_S64x256_S256x2048_S64x2048_1_0_0_1_n_n_wf
def dot_S2048x64_S64x256_S2048x256_1_0_0_1_n_n : DotDims S2048x64 S64x256 S2048x256 where
  lhsContracting := [1]
  rhsContracting := [0]
  lhsNonContracting := [0]
  rhsNonContracting := [1]
  lhsBatch := []
  rhsBatch := []
  wf := dot_S2048x64_S64x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

class Facts : Prop extends Facts₀ where

variable [Facts]
-- ==== Proof.Spec.lean ====
/-
  The mathematics both programs compute for their two memory results, stated once.

  A memory bank is an array M[b, s, u] of 2048 batches, 64 slots and 256 units.  The update drops slot 0, moves every
  other slot one place down, and writes into the last slot the projection of the first 256 columns of the input row
  through a 256 x 256 weight matrix:

      new[b, s, u] = M[b, s + 1, u]                      for s < 63,
      new[b, 63, u] = sum over k < 256 of x[b, k] * W[k, u].

  On the extended reals the sum is a finite sum of products in one fixed order, so no finiteness of the inputs is needed:
  both programs produce literally this sum.
-/
import Idealize.ShloMosaic.PureOps.Ideal
import Idealize.ShloMosaic.Lib.ValueIdx

noncomputable section

namespace Cert.Fifo

open Idealize.ShloMosaic Idealize.ShloMosaic.ValueIdx

/-- The input rows: 2048 rows of 512 entries (the first 256 are the row that is projected). -/
abbrev SIn : Shape := ⟨2, ![2048, 512]⟩
/-- A memory bank: 2048 batches, 64 slots, 256 units. -/
abbrev SMem : Shape := ⟨3, ![2048, 64, 256]⟩
/-- A projection matrix. -/
abbrev SWt : Shape := ⟨2, ![256, 256]⟩

/-- The projection of input row `b` through the weights, at unit `u`: the sum over the 256 contracted entries. -/
def proj (x : SIn.Idx → EReal) (W : SWt.Idx → EReal) (b : Fin 2048) (u : Fin 256) : EReal :=
  ∑ k : Fin 256, x (ix2 b ⟨k.val, by have := k.isLt; omega⟩) * W (ix2 k u)

/-- The updated memory bank: every slot but the last takes the next slot's contents, the last takes the projection. -/
def shiftAppend (x : SIn.Idx → EReal) (M : SMem.Idx → EReal) (W : SWt.Idx → EReal) : SMem.Idx → EReal := fun i =>
  if h : (i 1).val + 1 < 64 then M (ix3 (i 0) ⟨(i 1).val + 1, h⟩ (i 2)) else proj x W (i 0) (i 2)

theorem shiftAppend_of_lt (x : SIn.Idx → EReal) (M : SMem.Idx → EReal) (W : SWt.Idx → EReal) (i : SMem.Idx)
    (h : (i 1).val + 1 < 64) : shiftAppend x M W i = M (ix3 (i 0) ⟨(i 1).val + 1, h⟩ (i 2)) := by
  unfold shiftAppend; rw [dif_pos h]

theorem shiftAppend_of_last (x : SIn.Idx → EReal) (M : SMem.Idx → EReal) (W : SWt.Idx → EReal) (i : SMem.Idx)
    (h : ¬ (i 1).val + 1 < 64) : shiftAppend x M W i = proj x W (i 0) (i 2) := by
  unfold shiftAppend; rw [dif_neg h]

end Cert.Fifo

end
-- ==== Proof.RefSide.lean ====
/-
  The reference's two memory results are the shifted-and-appended bank of the specification.

  The reference builds each result as the concatenation, along the slot axis, of slots 1..63 of the old bank (63 slots)
  and the projection laid out as one slot.  Read at an index (b, s, u): for s < 63 the first piece gives M[b, s + 1, u];
  for s = 63 the second piece gives the projection at (b, u), which is the sum over the contracted axis of
  x[b, k] * W[k, u], the rows x[b, ·] being the first 256 columns of the input.
-/
import proofs.«108641_j65670049956484_1_alg».proof.Proof.Gen.ReferenceIdeal.Read
import proofs.«108641_j65670049956484_1_alg».proof.Proof.Spec

noncomputable section

namespace Cert.ReferenceIdeal.Hand

open Cert.ReferenceIdeal Cert.ReferenceIdeal.Read Cert.Fifo
open Idealize.ShloMosaic Idealize.ShloMosaic.ValueIdx

/-- The projection stage of the reference (the product of the first 256 input columns with a weight matrix), at (b, u),
    is the specification's sum. -/
theorem v16_apply (x0 : SIn.Idx → EReal) (x3 : SWt.Idx → EReal) (b : Fin 2048) (u : Fin 256) :
    val_main_v16 (F := Ideal) x0 x3 (ix2 b u) = proj x0 x3 b u := by
  rw [val_main_v16_apply]
  unfold proj
  refine Finset.sum_congr rfl fun k _ => ?_
  rw [val_main_v0_apply]
  congr 2
  · funext a; apply Fin.ext
    match a with
    | ⟨0, _⟩ => rfl
    | ⟨1, _⟩ => rfl
  · funext a; apply Fin.ext
    match a with
    | ⟨0, _⟩ => rfl
    | ⟨1, _⟩ => rfl

theorem v17_apply (x0 : SIn.Idx → EReal) (x4 : SWt.Idx → EReal) (b : Fin 2048) (u : Fin 256) :
    val_main_v17 (F := Ideal) x0 x4 (ix2 b u) = proj x0 x4 b u := by
  rw [val_main_v17_apply]
  unfold proj
  refine Finset.sum_congr rfl fun k _ => ?_
  rw [val_main_v0_apply]
  congr 2
  · funext a; apply Fin.ext
    match a with
    | ⟨0, _⟩ => rfl
    | ⟨1, _⟩ => rfl
  · funext a; apply Fin.ext
    match a with
    | ⟨0, _⟩ => rfl
    | ⟨1, _⟩ => rfl

/-- The reference's first memory result is the specification's bank. -/
theorem v20_eq (x0 : SIn.Idx → EReal) (x1 : SMem.Idx → EReal) (x3 : SWt.Idx → EReal) :
    val_main_v20 (F := Ideal) x0 x1 x3 = shiftAppend x0 x1 x3 := by
  funext i
  unfold val_main_v20
  by_cases h : (i 1).val + 1 < 64
  · rw [shiftAppend_of_lt _ _ _ i h]
    have h63 : (i 1).val < 63 := by omega
    refine (concatenate_pair_apply_left (t := S2048x64x256) (s₁ := S2048x63x256) (s₂ := S2048x1x256) (1 : Fin 3)
      (val_main_v18 (F := Ideal) x1) (val_main_v19 (F := Ideal) x0 x3) _ i rfl
      (ix3 (i 0) (⟨(i 1).val, h63⟩ : Fin 63) (i 2) : S2048x63x256.Idx) (fun b => by
        match b with
        | ⟨0, _⟩ => rfl
        | ⟨1, _⟩ => rfl
        | ⟨2, _⟩ => rfl)).trans ?_
    rw [val_main_v18_apply]
    congr 1
    funext a; apply Fin.ext
    match a with
    | ⟨0, _⟩ => rfl
    | ⟨1, _⟩ => show 1 + (i 1).val = (i 1).val + 1; omega
    | ⟨2, _⟩ => rfl
  · rw [shiftAppend_of_last _ _ _ i h]
    have h63 : (i 1).val = 63 := by have h64 : (i 1).val < 64 := (i 1).isLt; omega
    refine (concatenate_pair_apply_right (t := S2048x64x256) (s₁ := S2048x63x256) (s₂ := S2048x1x256) (1 : Fin 3)
      (val_main_v18 (F := Ideal) x1) (val_main_v19 (F := Ideal) x0 x3) _ i rfl rfl
      (ix3 (i 0) (0 : Fin 1) (i 2) : S2048x1x256.Idx) (fun b hb => by
        match b with
        | ⟨0, _⟩ => rfl
        | ⟨1, _⟩ => exact absurd rfl hb
        | ⟨2, _⟩ => rfl) (by show 0 + 63 = (i 1).val; omega)).trans ?_
    rw [val_main_v19_apply]
    have e : idx_main_v19 (ix3 (i 0) (0 : Fin 1) (i 2) : S2048x1x256.Idx) = ix2 (i 0) (i 2) := funext fun a => Fin.ext (by
      match a with
      | ⟨0, _⟩ => rfl
      | ⟨1, _⟩ => rfl)
    rw [e]
    exact v16_apply x0 x3 (i 0) (i 2)

/-- The reference's second memory result is the specification's bank. -/
theorem v23_eq (x0 : SIn.Idx → EReal) (x2 : SMem.Idx → EReal) (x4 : SWt.Idx → EReal) :
    val_main_v23 (F := Ideal) x0 x2 x4 = shiftAppend x0 x2 x4 := by
  funext i
  unfold val_main_v23
  by_cases h : (i 1).val + 1 < 64
  · rw [shiftAppend_of_lt _ _ _ i h]
    have h63 : (i 1).val < 63 := by omega
    refine (concatenate_pair_apply_left (t := S2048x64x256) (s₁ := S2048x63x256) (s₂ := S2048x1x256) (1 : Fin 3)
      (val_main_v21 (F := Ideal) x2) (val_main_v22 (F := Ideal) x0 x4) _ i rfl
      (ix3 (i 0) (⟨(i 1).val, h63⟩ : Fin 63) (i 2) : S2048x63x256.Idx) (fun b => by
        match b with
        | ⟨0, _⟩ => rfl
        | ⟨1, _⟩ => rfl
        | ⟨2, _⟩ => rfl)).trans ?_
    rw [val_main_v21_apply]
    congr 1
    funext a; apply Fin.ext
    match a with
    | ⟨0, _⟩ => rfl
    | ⟨1, _⟩ => show 1 + (i 1).val = (i 1).val + 1; omega
    | ⟨2, _⟩ => rfl
  · rw [shiftAppend_of_last _ _ _ i h]
    have h63 : (i 1).val = 63 := by have h64 : (i 1).val < 64 := (i 1).isLt; omega
    refine (concatenate_pair_apply_right (t := S2048x64x256) (s₁ := S2048x63x256) (s₂ := S2048x1x256) (1 : Fin 3)
      (val_main_v21 (F := Ideal) x2) (val_main_v22 (F := Ideal) x0 x4) _ i rfl rfl
      (ix3 (i 0) (0 : Fin 1) (i 2) : S2048x1x256.Idx) (fun b hb => by
        match b with
        | ⟨0, _⟩ => rfl
        | ⟨1, _⟩ => exact absurd rfl hb
        | ⟨2, _⟩ => rfl) (by show 0 + 63 = (i 1).val; omega)).trans ?_
    rw [val_main_v22_apply]
    have e : idx_main_v22 (ix3 (i 0) (0 : Fin 1) (i 2) : S2048x1x256.Idx) = ix2 (i 0) (i 2) := funext fun a => Fin.ext (by
      match a with
      | ⟨0, _⟩ => rfl
      | ⟨1, _⟩ => rfl)
    rw [e]
    exact v17_apply x0 x4 (i 0) (i 2)

end Cert.ReferenceIdeal.Hand

end
-- ==== Proof.KerPay.lean ====
/-
  What the kernel body stores, entry by entry.

  At one grid point the body holds a block of 32 batches.  With e the 32 x 256 block of input rows, W the weight matrix
  and M the 32 x 64 x 256 block of the bank, the value it stores at (b, s, u) is

      M[b, s + 1, u]                        for s < 63  (the rotation by 63 along the slot axis reads slot s + 1 - 64·[s = 63]),
      sum over k of e[b, k] * W[k, u]       for s = 63  (the mask "slot index = 63" selects the projection, broadcast over the slots).

  On the extended reals the narrowing of the matrix operands is the identity and the product into a zero accumulator is the
  plain sum.
-/
import proofs.«108641_j65670049956484_1_alg».proof.Proof.Gen.KernelIdeal.Skeleton
import Idealize.ShloMosaic.Lib.Pipeline.Value
import Idealize.ShloMosaic.Lib.ValueIdx
import Idealize.ShloMosaic.Lib.KernelVsHost
import Idealize.ShloMosaic.Lib.Affine
import Idealize.ShloMosaic.PureOps.Ideal.Laws

noncomputable section

namespace Cert.KernelIdeal.Hand

open Cert.KernelIdeal Cert.KernelIdeal.Gen
open Idealize.ShloMosaic Idealize.ShloMosaic.ValueIdx

/-! ## The mask: slot index equal to 63 -/

theorem mask_last (b : Fin 32) (s : Fin 64) (u : Fin 256) (hs : s.val = 63) :
    k0_pay2 (ix3 b s u) = 1#1 := by
  unfold k0_pay2
  show IntOp.cmpi .eq (iota .tc S32x64x256 32 [1] iota_S32x64x256_d1_w32 (ix3 b s u)) (63#32) = 1#1
  rw [iota_single_apply, IntOp.cmpi_eq]
  show BitVec.ofNat 32 s.val = 63#32
  rw [hs]

theorem mask_other (b : Fin 32) (s : Fin 64) (u : Fin 256) (hs : s.val ≠ 63) :
    k0_pay2 (ix3 b s u) = 0#1 := by
  apply eq_zero_of_ne_one
  unfold k0_pay2
  show ¬ IntOp.cmpi .eq (iota .tc S32x64x256 32 [1] iota_S32x64x256_d1_w32 (ix3 b s u)) (63#32) = 1#1
  rw [iota_single_apply, IntOp.cmpi_eq]
  show ¬ BitVec.ofNat 32 s.val = 63#32
  intro h
  have h2 := congrArg BitVec.toNat h
  have hlt : s.val < 64 := s.isLt
  simp only [BitVec.toNat_ofNat] at h2
  omega

/-! ## The projection: the matrix product into a zero accumulator, at (b, u) -/

theorem lhs_proj_0 (i : S32x256.Idx) (q : dot_S32x256_S256x256_S32x256_1_0_0_1_n_n.contr.Idx) :
    (dot_S32x256_S256x256_S32x256_1_0_0_1_n_n.lhsIdx i q 0).val = (i 0).val := by
  unfold DotDims.lhsIdx
  rw [dif_neg (show ¬(0 : Fin S32x256.rank) ∈ dot_S32x256_S256x256_S32x256_1_0_0_1_n_n.lhsBatch by decide), dif_pos (show (0 : Fin S32x256.rank) ∈ dot_S32x256_S256x256_S32x256_1_0_0_1_n_n.lhsNonContracting by decide)]
  rfl
theorem lhs_proj_1 (i : S32x256.Idx) (q : dot_S32x256_S256x256_S32x256_1_0_0_1_n_n.contr.Idx) :
    (dot_S32x256_S256x256_S32x256_1_0_0_1_n_n.lhsIdx i q 1).val = (q ⟨0, by decide⟩).val :=
  dot_S32x256_S256x256_S32x256_1_0_0_1_n_n.lhsIdx_val_of_single rfl i q
theorem rhs_proj_0 (i : S32x256.Idx) (q : dot_S32x256_S256x256_S32x256_1_0_0_1_n_n.contr.Idx) :
    (dot_S32x256_S256x256_S32x256_1_0_0_1_n_n.rhsIdx i q 0).val = (q ⟨0, by decide⟩).val :=
  dot_S32x256_S256x256_S32x256_1_0_0_1_n_n.rhsIdx_val_of_single rfl i q
theorem rhs_proj_1 (i : S32x256.Idx) (q : dot_S32x256_S256x256_S32x256_1_0_0_1_n_n.contr.Idx) :
    (dot_S32x256_S256x256_S32x256_1_0_0_1_n_n.rhsIdx i q 1).val = (i 1).val := by
  unfold DotDims.rhsIdx
  rw [dif_neg (show ¬(1 : Fin S256x256.rank) ∈ dot_S32x256_S256x256_S32x256_1_0_0_1_n_n.rhsBatch by decide), dif_pos (show (1 : Fin S256x256.rank) ∈ dot_S32x256_S256x256_S32x256_1_0_0_1_n_n.rhsNonContracting by decide)]
  rfl

/-- The block's projection at (b, u): the sum over the contracted axis of e[b, k] * W[k, u]. -/
theorem proj_apply (e : Vec Ideal S32x256 .f32) (W : Vec Ideal S256x256 .f32) (b : Fin 32) (u : Fin 256) :
    matmul dot_S32x256_S256x256_S32x256_1_0_0_1_n_n none (k0_pay1 e) (truncf .bf16 W bitsLt_bf16_f32)
        (constant S32x256 .f32 0x00000000#32) (ix2 b u)
      = ∑ k : Fin 256, (e (ix2 b k) : EReal) * (W (ix2 k u) : EReal) := by
  simp only [matmul]
  rw [Ideal.matmul_constant_zero_apply, ← Equiv.sum_comp (ValueIdx.contrEquiv1 dot_S32x256_S256x256_S32x256_1_0_0_1_n_n 256 rfl rfl).symm]
  refine Finset.sum_congr rfl fun k _ => ?_
  have hk := ValueIdx.contrEquiv1_symm_val dot_S32x256_S256x256_S32x256_1_0_0_1_n_n 256 rfl rfl k
  have el : dot_S32x256_S256x256_S32x256_1_0_0_1_n_n.lhsIdx (ix2 b u) ((ValueIdx.contrEquiv1 dot_S32x256_S256x256_S32x256_1_0_0_1_n_n 256 rfl rfl).symm k) = ix2 b k := funext fun a => Fin.ext (by
    match a with
    | ⟨0, _⟩ => exact lhs_proj_0 _ _
    | ⟨1, _⟩ => exact (lhs_proj_1 _ _).trans hk)
  have er : dot_S32x256_S256x256_S32x256_1_0_0_1_n_n.rhsIdx (ix2 b u) ((ValueIdx.contrEquiv1 dot_S32x256_S256x256_S32x256_1_0_0_1_n_n 256 rfl rfl).symm k) = ix2 k u := funext fun a => Fin.ext (by
    match a with
    | ⟨0, _⟩ => exact (rhs_proj_0 _ _).trans hk
    | ⟨1, _⟩ => exact rhs_proj_1 _ _)
  rw [el, er]
  unfold k0_pay1
  rw [shapeCast_self]
  rfl

/-! ## The stored value at an entry -/

/-- The body's stored value as one term of the three blocks it depends on (both stores have this form). -/
def stored (e : Vec Ideal S32x256 .f32) (W : Vec Ideal S256x256 .f32) (M : Vec Ideal S32x64x256 .f32) : FVec Ideal S32x64x256 .f32 :=
  select k0_pay2
    (broadcastTo S32x64x256 (shapeCast S32x1x256 (shapeCast S32x1x256
      (matmul dot_S32x256_S256x256_S32x256_1_0_0_1_n_n none (k0_pay1 e) (truncf .bf16 W bitsLt_bf16_f32) (constant S32x256 .f32 0x00000000#32))
      shapeCasts_S32x256_S32x1x256) shapeCasts_S32x1x256_S32x1x256) broadcasts_S32x1x256_S32x64x256)
    (dynamicRotate 1 63#32 none M rotates_S32x64x256_d1)

theorem pay3_eq (e : Vec Ideal S32x256 .f32) (W : Vec Ideal S256x256 .f32) (M : Vec Ideal S32x64x256 .f32) :
    k0_pay3 e W M = stored e W M := rfl

theorem pay4_eq (e : Vec Ideal S32x256 .f32) (W : Vec Ideal S256x256 .f32) (M : Vec Ideal S32x64x256 .f32) :
    k0_pay4 e W M = stored e W M := rfl

/-- A slot before the last takes the next slot of the block. -/
theorem stored_of_lt (e : Vec Ideal S32x256 .f32) (W : Vec Ideal S256x256 .f32) (M : Vec Ideal S32x64x256 .f32)
    (b : Fin 32) (s : Fin 64) (u : Fin 256) (h : s.val + 1 < 64) :
    stored e W M (ix3 b s u) = M (ix3 b ⟨s.val + 1, h⟩ u) := by
  unfold stored
  rw [select_apply, mask_other b s u (by omega), select_zero]
  refine dynamicRotate_apply (1 : Fin 3) 63#32 M rotates_S32x64x256_d1 (ix3 b s u) (ix3 b ⟨s.val + 1, h⟩ u) (fun a => ?_)
  match a with
  | ⟨0, _⟩ => rfl
  | ⟨1, _⟩ => show s.val + 1 = (s.val + 64 - 63 % 64) % 64; omega
  | ⟨2, _⟩ => rfl

/-- The last slot takes the projection of the block's input rows. -/
theorem stored_of_last (e : Vec Ideal S32x256 .f32) (W : Vec Ideal S256x256 .f32) (M : Vec Ideal S32x64x256 .f32)
    (b : Fin 32) (s : Fin 64) (u : Fin 256) (h : ¬ s.val + 1 < 64) :
    stored e W M (ix3 b s u) = ∑ k : Fin 256, (e (ix2 b k) : EReal) * (W (ix2 k u) : EReal) := by
  have hs : s.val = 63 := by have := s.isLt; omega
  unfold stored
  rw [select_apply, mask_last b s u hs, select_one]
  refine (broadcastTo_apply _ broadcasts_S32x1x256_S32x64x256 (ix3 b s u) (ix3 b (0 : Fin 1) u : S32x1x256.Idx) (fun a => ?_)).trans ?_
  · match a with
    | ⟨0, _⟩ => rfl
    | ⟨1, _⟩ => rfl
    | ⟨2, _⟩ => rfl
  rw [shapeCast_self]
  refine (shapeCast_apply _ shapeCasts_S32x256_S32x1x256 (ix3 b (0 : Fin 1) u : S32x1x256.Idx) (ix2 b u) ?_).trans ?_
  · rw [Shape.rowMajor_val_two, Shape.rowMajor_val_three]
    show b.val * 256 + u.val = (b.val * 1 + 0) * 256 + u.val
    omega
  exact proj_apply e W b u

end Cert.KernelIdeal.Hand

end
-- ==== Proof.KerValue.lean ====
/-
  The kernel's two memory results as whole arrays.

  Grid point t holds batches 32 t .. 32 t + 31: its block of the input rows is rows 32 t + b of the first 256 input columns,
  its block of a bank is batches 32 t + b of the bank, and it sees the whole weight matrix.  What it writes back is therefore
  block t of the specification's updated bank, and the 64 blocks tile the 2048 batches, so each result array ends holding the
  updated bank.
-/
import proofs.«108641_j65670049956484_1_alg».proof.Proof.Gen.KernelIdeal.Value
import proofs.«108641_j65670049956484_1_alg».proof.Proof.KerPay
import proofs.«108641_j65670049956484_1_alg».proof.Proof.Spec
import Idealize.ShloMosaic.Lib.StableHlo.Run
import Idealize.ShloMosaic.Lib.Tactic

noncomputable section

namespace Cert.KernelIdeal.Hand

open Cert.KernelIdeal Cert.KernelIdeal.Gen Cert.KernelIdeal.Value Cert.Fifo
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The argument arrays under the types the specification reads them at. -/
abbrev xarr (c : Dev nD) : SIn.Idx → EReal := m ((c : Thread nD τ).loc main_arg0)
abbrev karr (c : Dev nD) : SMem.Idx → EReal := m ((c : Thread nD τ).loc main_arg1)
abbrev varr (c : Dev nD) : SMem.Idx → EReal := m ((c : Thread nD τ).loc main_arg2)
abbrev wkarr (c : Dev nD) : SWt.Idx → EReal := m ((c : Thread nD τ).loc main_arg3)
abbrev wvarr (c : Dev nD) : SWt.Idx → EReal := m ((c : Thread nD τ).loc main_arg4)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the 64 grid points: every blocked window is at block (t, 0, …), the weights at (0, 0). -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0
    ∧ win0_6.index t (0 : Fin 3) = t.val ∧ win0_6.index t (1 : Fin 3) = 0 ∧ win0_6.index t (2 : Fin 3) = 0 :=
  (by decide +kernel : ∀ t : Fin grid0.N, _)

/-- The rows the region stages as its first window are the first 256 columns of the input. -/
theorem V_v0 (c : Dev nD) :
    (V m c main_v0 : S2048x256.Idx → EReal) = extractStridedSlice S2048x256 ![0, 0] (xarr m c) slices_S2048x512_S2048x256_0_0 := by
  dsimp only [Gen.V, Gen.hostOps0]
  after_results

/-- The input-row block at point t: rows 32 t + b, columns k < 256 of the input. -/
theorem iblk0_apply (c : Dev nD) (t : Fin cfg0.N) (y : S32x256.Idx) (k : SIn.Idx)
    (h0 : (k 0).val = 32 * t.val + (y 0).val) (h1 : (k 1).val = (y 1).val) :
    (iblk m c 0 t : Vec Ideal S32x256 .f32) y = xarr m c k := by
  obtain ⟨e0, e1, -⟩ := idx_facts t
  unfold iblk
  rw [View.read_apply]
  show (V m c main_v0 : S2048x256.Idx → EReal) _ = _
  rw [V_v0]
  refine extractStridedSlice_apply ![0, 0] _ _ _ k (fun a => ?_)
  match a with
  | ⟨0, _⟩ => show (k 0).val = 0 + (win0_0.index t (0 : Fin 2) * 32 + 1 * (y 0).val); rw [e0, h0]; omega
  | ⟨1, _⟩ => show (k 1).val = 0 + (win0_0.index t (1 : Fin 2) * 256 + 1 * (y 1).val); rw [e1, h1]; omega

/-- A bank's block at point t: batches 32 t + b of the bank (window 1 stages the first bank). -/
theorem iblk1_apply (c : Dev nD) (t : Fin cfg0.N) (y : S32x64x256.Idx) (k : SMem.Idx)
    (h0 : (k 0).val = 32 * t.val + (y 0).val) (h1 : (k 1).val = (y 1).val) (h2 : (k 2).val = (y 2).val) :
    (iblk m c 1 t : Vec Ideal S32x64x256 .f32) y = karr m c k := by
  obtain ⟨-, -, e0, e1, e2, -⟩ := idx_facts t
  unfold iblk
  rw [View.read_apply]
  show (V m c main_arg1 : S2048x64x256.Idx → EReal) _ = _
  rw [V_main_arg1]
  show karr m c _ = karr m c k
  congr 1
  funext a
  apply Fin.ext
  match a with
  | ⟨0, _⟩ => show win0_1.index t (0 : Fin 3) * 32 + 1 * (y 0).val = (k 0).val; rw [e0, h0]; omega
  | ⟨1, _⟩ => show win0_1.index t (1 : Fin 3) * 64 + 1 * (y 1).val = (k 1).val; rw [e1, h1]; omega
  | ⟨2, _⟩ => show win0_1.index t (2 : Fin 3) * 256 + 1 * (y 2).val = (k 2).val; rw [e2, h2]; omega

/-- The same for the second bank (window 2). -/
theorem iblk2_apply (c : Dev nD) (t : Fin cfg0.N) (y : S32x64x256.Idx) (k : SMem.Idx)
    (h0 : (k 0).val = 32 * t.val + (y 0).val) (h1 : (k 1).val = (y 1).val) (h2 : (k 2).val = (y 2).val) :
    (iblk m c 2 t : Vec Ideal S32x64x256 .f32) y = varr m c k := by
  obtain ⟨-, -, -, -, -, e0, e1, e2, -⟩ := idx_facts t
  unfold iblk
  rw [View.read_apply]
  show (V m c main_arg2 : S2048x64x256.Idx → EReal) _ = _
  rw [V_main_arg2]
  show varr m c _ = varr m c k
  congr 1
  funext a
  apply Fin.ext
  match a with
  | ⟨0, _⟩ => show win0_2.index t (0 : Fin 3) * 32 + 1 * (y 0).val = (k 0).val; rw [e0, h0]; omega
  | ⟨1, _⟩ => show win0_2.index t (1 : Fin 3) * 64 + 1 * (y 1).val = (k 1).val; rw [e1, h1]; omega
  | ⟨2, _⟩ => show win0_2.index t (2 : Fin 3) * 256 + 1 * (y 2).val = (k 2).val; rw [e2, h2]; omega

/-- Every point sees the whole first weight matrix (window 3). -/
theorem iblk3_apply (c : Dev nD) (t : Fin cfg0.N) (y : S256x256.Idx) :
    (iblk m c 3 t : Vec Ideal S256x256 .f32) y = wkarr m c y := by
  obtain ⟨-, -, -, -, -, -, -, -, e0, e1, -⟩ := idx_facts t
  unfold iblk
  rw [View.read_apply]
  show (V m c main_arg3 : S256x256.Idx → EReal) _ = _
  rw [V_main_arg3]
  show wkarr m c _ = wkarr m c y
  congr 1
  funext a
  apply Fin.ext
  match a with
  | ⟨0, _⟩ => show win0_3.index t (0 : Fin 2) * 256 + 1 * (y 0).val = (y 0).val; rw [e0]; omega
  | ⟨1, _⟩ => show win0_3.index t (1 : Fin 2) * 256 + 1 * (y 1).val = (y 1).val; rw [e1]; omega

/-- Every point sees the whole second weight matrix (window 4). -/
theorem iblk4_apply (c : Dev nD) (t : Fin cfg0.N) (y : S256x256.Idx) :
    (iblk m c 4 t : Vec Ideal S256x256 .f32) y = wvarr m c y := by
  obtain ⟨-, -, -, -, -, -, -, -, -, -, e0, e1, -⟩ := idx_facts t
  unfold iblk
  rw [View.read_apply]
  show (V m c main_arg4 : S256x256.Idx → EReal) _ = _
  rw [V_main_arg4]
  show wvarr m c _ = wvarr m c y
  congr 1
  funext a
  apply Fin.ext
  match a with
  | ⟨0, _⟩ => show win0_4.index t (0 : Fin 2) * 256 + 1 * (y 0).val = (y 0).val; rw [e0]; omega
  | ⟨1, _⟩ => show win0_4.index t (1 : Fin 2) * 256 + 1 * (y 1).val = (y 1).val; rw [e1]; omega

/-! ## What a point writes back is a block of the updated bank -/

/-- Entry (b, s, u) of what point t stores for the first bank is the updated first bank at batch 32 t + b. -/
theorem stored5_apply (c : Dev nD) (t : Fin cfg0.N) (b : Fin 32) (s : Fin 64) (u : Fin 256) (hb : 32 * t.val + b.val < 2048) :
    stored (iblk m c 0 t) (iblk m c 3 t) (iblk m c 1 t) (ix3 b s u)
      = shiftAppend (xarr m c) (karr m c) (wkarr m c) (ix3 (⟨32 * t.val + b.val, hb⟩ : Fin 2048) s u) := by
  by_cases h : s.val + 1 < 64
  · rw [shiftAppend_of_lt _ _ _ (ix3 (⟨32 * t.val + b.val, hb⟩ : Fin 2048) s u) h]
    refine (stored_of_lt (iblk m c 0 t) (iblk m c 3 t) (iblk m c 1 t) b s u h).trans ?_
    exact iblk1_apply m c t (ix3 b ⟨s.val + 1, h⟩ u) _ rfl rfl rfl
  · rw [shiftAppend_of_last _ _ _ (ix3 (⟨32 * t.val + b.val, hb⟩ : Fin 2048) s u) h]
    refine (stored_of_last (iblk m c 0 t) (iblk m c 3 t) (iblk m c 1 t) b s u h).trans ?_
    unfold proj
    refine Finset.sum_congr rfl fun k _ => ?_
    rw [iblk0_apply m c t (ix2 b k) (ix2 (⟨32 * t.val + b.val, hb⟩ : Fin 2048) (⟨k.val, by have := k.isLt; omega⟩ : Fin 512)) rfl rfl,
      iblk3_apply m c t (ix2 k u)]

/-- The same for the second bank. -/
theorem stored6_apply (c : Dev nD) (t : Fin cfg0.N) (b : Fin 32) (s : Fin 64) (u : Fin 256) (hb : 32 * t.val + b.val < 2048) :
    stored (iblk m c 0 t) (iblk m c 4 t) (iblk m c 2 t) (ix3 b s u)
      = shiftAppend (xarr m c) (varr m c) (wvarr m c) (ix3 (⟨32 * t.val + b.val, hb⟩ : Fin 2048) s u) := by
  by_cases h : s.val + 1 < 64
  · rw [shiftAppend_of_lt _ _ _ (ix3 (⟨32 * t.val + b.val, hb⟩ : Fin 2048) s u) h]
    refine (stored_of_lt (iblk m c 0 t) (iblk m c 4 t) (iblk m c 2 t) b s u h).trans ?_
    exact iblk2_apply m c t (ix3 b ⟨s.val + 1, h⟩ u) _ rfl rfl rfl
  · rw [shiftAppend_of_last _ _ _ (ix3 (⟨32 * t.val + b.val, hb⟩ : Fin 2048) s u) h]
    refine (stored_of_last (iblk m c 0 t) (iblk m c 4 t) (iblk m c 2 t) b s u h).trans ?_
    unfold proj
    refine Finset.sum_congr rfl fun k _ => ?_
    rw [iblk0_apply m c t (ix2 b k) (ix2 (⟨32 * t.val + b.val, hb⟩ : Fin 2048) (⟨k.val, by have := k.isLt; omega⟩ : Fin 512)) rfl rfl,
      iblk4_apply m c t (ix2 k u)]

/-- Point t writes back block t of the updated first bank. -/
theorem flushed5_eq (c : Dev nD) (t : Fin cfg0.N) :
    (dats m 0 c).flushed 5 t
      = ((cfg0.win 5).blk t).view.read (Elt Ideal) (shiftAppend (xarr m c) (karr m c) (wkarr m c)) := by
  obtain ⟨-, -, -, -, -, -, -, -, -, -, -, -, e0, e1, e2, -⟩ := idx_facts t
  have hN : t.val < 64 := lt_of_lt_of_eq t.isLt N_0
  rw [flushed5]
  unfold out0_5
  rw [View.canon_unit_zero hz3]
  simp only [View.ld_unit_zero (S := S32x256) hz2, View.ld_unit_zero (S := S256x256) hz2, View.ld_unit_zero (S := S32x64x256) hz3]
  rw [pay3_eq]
  funext j
  obtain ⟨b, s, u, rfl⟩ : ∃ (b : Fin 32) (s : Fin 64) (u : Fin 256), j = ix3 b s u := ⟨j 0, j 1, j 2, eq_ix3 j⟩
  have hb : 32 * t.val + b.val < 2048 := by have := b.isLt; omega
  rw [View.read_apply]
  have hemb : ((cfg0.win 5).blk t).view.emb (ix3 b s u) = ix3 (⟨32 * t.val + b.val, hb⟩ : Fin 2048) s u := by
    funext a
    apply Fin.ext
    match a with
    | ⟨0, _⟩ => show win0_5.index t (0 : Fin 3) * 32 + 1 * b.val = 32 * t.val + b.val; rw [e0]; omega
    | ⟨1, _⟩ => show win0_5.index t (1 : Fin 3) * 64 + 1 * s.val = s.val; rw [e1]; omega
    | ⟨2, _⟩ => show win0_5.index t (2 : Fin 3) * 256 + 1 * u.val = u.val; rw [e2]; omega
  rw [hemb]
  exact stored5_apply m c t b s u hb

/-- Point t writes back block t of the updated second bank. -/
theorem flushed6_eq (c : Dev nD) (t : Fin cfg0.N) :
    (dats m 0 c).flushed 6 t
      = ((cfg0.win 6).blk t).view.read (Elt Ideal) (shiftAppend (xarr m c) (varr m c) (wvarr m c)) := by
  obtain ⟨-, -, -, -, -, -, -, -, -, -, -, -, -, -, -, e0, e1, e2⟩ := idx_facts t
  have hN : t.val < 64 := lt_of_lt_of_eq t.isLt N_0
  rw [flushed6]
  unfold out0_6
  rw [View.canon_unit_zero hz3]
  simp only [View.ld_unit_zero (S := S32x256) hz2, View.ld_unit_zero (S := S256x256) hz2, View.ld_unit_zero (S := S32x64x256) hz3]
  rw [pay4_eq]
  funext j
  obtain ⟨b, s, u, rfl⟩ : ∃ (b : Fin 32) (s : Fin 64) (u : Fin 256), j = ix3 b s u := ⟨j 0, j 1, j 2, eq_ix3 j⟩
  have hb : 32 * t.val + b.val < 2048 := by have := b.isLt; omega
  rw [View.read_apply]
  have hemb : ((cfg0.win 6).blk t).view.emb (ix3 b s u) = ix3 (⟨32 * t.val + b.val, hb⟩ : Fin 2048) s u := by
    funext a
    apply Fin.ext
    match a with
    | ⟨0, _⟩ => show win0_6.index t (0 : Fin 3) * 32 + 1 * b.val = 32 * t.val + b.val; rw [e0]; omega
    | ⟨1, _⟩ => show win0_6.index t (1 : Fin 3) * 64 + 1 * s.val = s.val; rw [e1]; omega
    | ⟨2, _⟩ => show win0_6.index t (2 : Fin 3) * 256 + 1 * u.val = u.val; rw [e2]; omega
  rw [hemb]
  exact stored6_apply m c t b s u hb

/-! ## The 64 blocks tile the 2048 batches -/

/-- Batch i 0 lies in the block of point (i 0) / 32. -/
theorem cover5 (i : S2048x64x256.Idx) :
    ∃ t : Fin cfg0.N, (cfg0.win 5).flush t = true ∧ i ∈ ((cfg0.win 5).blk t).view.set := by
  have hi0 : (i 0).val < 2048 := (i 0).isLt
  have hi1 : (i 1).val < 64 := (i 1).isLt
  have hi2 : (i 2).val < 256 := (i 2).isLt
  have hN : cfg0.N = 64 := N_0
  have ht : (i 0).val / 32 < cfg0.N := by rw [hN]; omega
  obtain ⟨-, -, -, -, -, -, -, -, -, -, -, -, e0, e1, e2, -⟩ := idx_facts ⟨(i 0).val / 32, ht⟩
  refine ⟨⟨(i 0).val / 32, ht⟩, flush0_5 _, ?_⟩
  show i ∈ ((View.whole main_v16_0).slice (win0_5.rect ⟨(i 0).val / 32, ht⟩)).set
  rw [View.set_slice_whole, Rect.mem_set_unit]
  intro a
  match a with
  | ⟨0, _⟩ =>
    show win0_5.index ⟨(i 0).val / 32, ht⟩ (0 : Fin 3) * 32 ≤ (i 0).val ∧ (i 0).val < win0_5.index ⟨(i 0).val / 32, ht⟩ (0 : Fin 3) * 32 + 32
    rw [e0]; show (i 0).val / 32 * 32 ≤ (i 0).val ∧ (i 0).val < (i 0).val / 32 * 32 + 32; omega
  | ⟨1, _⟩ =>
    show win0_5.index ⟨(i 0).val / 32, ht⟩ (1 : Fin 3) * 64 ≤ (i 1).val ∧ (i 1).val < win0_5.index ⟨(i 0).val / 32, ht⟩ (1 : Fin 3) * 64 + 64
    rw [e1]; omega
  | ⟨2, _⟩ =>
    show win0_5.index ⟨(i 0).val / 32, ht⟩ (2 : Fin 3) * 256 ≤ (i 2).val ∧ (i 2).val < win0_5.index ⟨(i 0).val / 32, ht⟩ (2 : Fin 3) * 256 + 256
    rw [e2]; omega

theorem cover6 (i : S2048x64x256.Idx) :
    ∃ t : Fin cfg0.N, (cfg0.win 6).flush t = true ∧ i ∈ ((cfg0.win 6).blk t).view.set := by
  have hi0 : (i 0).val < 2048 := (i 0).isLt
  have hi1 : (i 1).val < 64 := (i 1).isLt
  have hi2 : (i 2).val < 256 := (i 2).isLt
  have hN : cfg0.N = 64 := N_0
  have ht : (i 0).val / 32 < cfg0.N := by rw [hN]; omega
  obtain ⟨-, -, -, -, -, -, -, -, -, -, -, -, -, -, -, e0, e1, e2⟩ := idx_facts ⟨(i 0).val / 32, ht⟩
  refine ⟨⟨(i 0).val / 32, ht⟩, flush0_6 _, ?_⟩
  show i ∈ ((View.whole main_v16_1).slice (win0_6.rect ⟨(i 0).val / 32, ht⟩)).set
  rw [View.set_slice_whole, Rect.mem_set_unit]
  intro a
  match a with
  | ⟨0, _⟩ =>
    show win0_6.index ⟨(i 0).val / 32, ht⟩ (0 : Fin 3) * 32 ≤ (i 0).val ∧ (i 0).val < win0_6.index ⟨(i 0).val / 32, ht⟩ (0 : Fin 3) * 32 + 32
    rw [e0]; show (i 0).val / 32 * 32 ≤ (i 0).val ∧ (i 0).val < (i 0).val / 32 * 32 + 32; omega
  | ⟨1, _⟩ =>
    show win0_6.index ⟨(i 0).val / 32, ht⟩ (1 : Fin 3) * 64 ≤ (i 1).val ∧ (i 1).val < win0_6.index ⟨(i 0).val / 32, ht⟩ (1 : Fin 3) * 64 + 64
    rw [e1]; omega
  | ⟨2, _⟩ =>
    show win0_6.index ⟨(i 0).val / 32, ht⟩ (2 : Fin 3) * 256 ≤ (i 2).val ∧ (i 2).val < win0_6.index ⟨(i 0).val / 32, ht⟩ (2 : Fin 3) * 256 + 256
    rw [e2]; omega

/-! ## The result arrays, and the run -/

/-- The first result array ends holding the updated first bank. -/
theorem final5 (c : Dev nD) : (dats m 0 c).arrAt 5 cfg0.N = shiftAppend (xarr m c) (karr m c) (wkarr m c) :=
  (dats m 0 c).arrAt_eq_of_cover 5 (shiftAppend (xarr m c) (karr m c) (wkarr m c)) (fun t _ => flushed5_eq m c t) cover5

/-- The second result array ends holding the updated second bank. -/
theorem final6 (c : Dev nD) : (dats m 0 c).arrAt 6 cfg0.N = shiftAppend (xarr m c) (varr m c) (wvarr m c) :=
  (dats m 0 c).arrAt_eq_of_cover 6 (shiftAppend (xarr m c) (varr m c) (wvarr m c)) (fun t _ => flushed6_eq m c t) cover6

/-- The kernel program's run: the attention output is what the host operations before the region left in its buffer
    (no window stages it), the two banks are the updated banks, the arguments are unchanged. -/
theorem run : θ_run defs (onTc (τ := τ) (main (F := Ideal))) ⟨m, fun _ => 0, ρ⟩ fun r => ∀ c : Dev nD,
      r.2.mem ((c : Thread nD τ).loc main_v15) = V m c main_v15
      ∧ r.2.mem ((c : Thread nD τ).loc main_v16_0) = shiftAppend (xarr m c) (karr m c) (wkarr m c)
      ∧ r.2.mem ((c : Thread nD τ).loc main_v16_1) = shiftAppend (xarr m c) (varr m c) (wvarr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).2 main_v15 (Pipeline.mem_restRefs_of main_v15 (by decide) (by decide)),
      (post5 m r h c).trans (final5 m c),
      (post6 m r h c).trans (final6 m c),
      kept_main_arg0 m r h c,
      kept_main_arg1 m r h c,
      kept_main_arg2 m r h c,
      kept_main_arg3 m r h c,
      kept_main_arg4 m r h c⟩)
    (run_main m ρ)

end Cert.KernelIdeal.Hand

end
-- ==== Proof.Attn.lean ====
/-
  The attention output.  Both programs compute it with the same host operations, in the same order, from the same three
  arguments (the input rows and the two banks): scores of batch 0's keys against the second half of every input row,
  their exponentials, each divided by a column sum re-laid through a reshape, and the product with batch 0's values.
  The kernel program computes it before its region and no window stages its buffer, so the region leaves it in place;
  the two terms are one term.
-/
import proofs.«108641_j65670049956484_1_alg».proof.Proof.Gen.KernelIdeal.Frame
import proofs.«108641_j65670049956484_1_alg».proof.Proof.Gen.ReferenceIdeal.Read
import Idealize.ShloMosaic.Lib.StableHlo.Run
import Idealize.ShloMosaic.Lib.Tactic

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ)

/-- What the kernel program's host operations leave in the attention output's buffer is the reference's attention stage
    of the same three arguments. -/
theorem V_v15 (c : Dev nD) :
    (V m c main_v15 : S2048x256.Idx → EReal)
      = Cert.ReferenceIdeal.Read.val_main_v15 (F := Ideal) (m ((c : Thread nD τ).loc main_arg0))
          (m ((c : Thread nD τ).loc main_arg1)) (m ((c : Thread nD τ).loc main_arg2)) := by
  dsimp only [Gen.V, Gen.hostOps0]
  after_results <;> rfl

end Cert.KernelIdeal.Hand

end
-- ==== Proof.lean ====
/-
  A memory cell with two 64-slot banks per batch.  One program projects the first half of each input row through two
  weight matrices inside a blocked kernel that also shifts each bank down one slot and writes the projection into the last
  slot; the other does the same with a slice, a broadcast and a concatenation.  Both compute the attention output with the
  same operations before that.

  The certificate: the three programs run and leave their arguments unchanged; the idealisation rewrote nothing; and on the
  extended reals the three results agree.  The attention output is one term on both sides.  Each updated bank is, on both
  sides, new[b, s, u] = M[b, s + 1, u] for s < 63 and the sum over k of x[b, k] * W[k, u] for s = 63 (Spec); the kernel's
  64 blocks of 32 batches tile the array (KerValue), its stored entries are that function (KerPay), and the reference's
  concatenation read at an index is that function (RefSide).  No finiteness of the inputs is used: the two sides are the
  same finite sum of products in the same order.
-/
import proofs.«108641_j65670049956484_1_alg».proof.Defs
import proofs.«108641_j65670049956484_1_alg».proof.Proof.Gen.Kernel
import proofs.«108641_j65670049956484_1_alg».proof.Proof.Gen.Kernel.Skeleton
import proofs.«108641_j65670049956484_1_alg».proof.Proof.Gen.Kernel.Launch
import proofs.«108641_j65670049956484_1_alg».proof.Proof.Gen.Kernel.Points
import proofs.«108641_j65670049956484_1_alg».proof.Proof.Gen.Kernel.Frame
import proofs.«108641_j65670049956484_1_alg».proof.Proof.Gen.KernelIdeal
import proofs.«108641_j65670049956484_1_alg».proof.Proof.Gen.KernelIdeal.Skeleton
import proofs.«108641_j65670049956484_1_alg».proof.Proof.Gen.KernelIdeal.Launch
import proofs.«108641_j65670049956484_1_alg».proof.Proof.Gen.KernelIdeal.Points
import proofs.«108641_j65670049956484_1_alg».proof.Proof.Gen.KernelIdeal.Frame
import proofs.«108641_j65670049956484_1_alg».proof.Proof.Gen.ReferenceIdeal
import proofs.«108641_j65670049956484_1_alg».proof.Proof.Gen.Pre_finite_inputs
import proofs.«108641_j65670049956484_1_alg».proof.Proof.Gen.KernelIdeal.Value
import proofs.«108641_j65670049956484_1_alg».proof.Proof.Gen.ReferenceIdeal.Run
import proofs.«108641_j65670049956484_1_alg».proof.Proof.Gen.ReferenceIdeal.Read
import proofs.«108641_j65670049956484_1_alg».proof.Proof.Spec
import proofs.«108641_j65670049956484_1_alg».proof.Proof.RefSide
import proofs.«108641_j65670049956484_1_alg».proof.Proof.KerPay
import proofs.«108641_j65670049956484_1_alg».proof.Proof.KerValue
import proofs.«108641_j65670049956484_1_alg».proof.Proof.Attn
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealisation rewrote no operation. -/
theorem preserves : Cert.preserves_Kernel_KernelIdeal := trivial

/-- The three results agree: the attention output as one term, each bank as the specification's updated bank. -/
theorem algebraic : Cert.algebraic_KernelIdeal_ReferenceIdeal := by
  intro m ρ m' ρ' _ hagree
  refine ⟨fun c => Cert.KernelIdeal.Gen.V m c Cert.KernelIdeal.main_v15,
    fun c => Cert.Fifo.shiftAppend (Cert.KernelIdeal.Hand.xarr m c) (Cert.KernelIdeal.Hand.karr m c) (Cert.KernelIdeal.Hand.wkarr m c),
    fun c => Cert.Fifo.shiftAppend (Cert.KernelIdeal.Hand.xarr m c) (Cert.KernelIdeal.Hand.varr m c) (Cert.KernelIdeal.Hand.wvarr m c),
    Cert.KernelIdeal.Hand.run m ρ, ?_⟩
  refine (θ_run Cert.ReferenceIdeal.defs _ _).mono (fun _ h c => ?_) (Cert.ReferenceIdeal.Value.run (F := Ideal) m' ρ')
  obtain ⟨a0, a1, a2, a3, a4⟩ := hagree c
  refine ⟨(h c).1.trans ?_, (h c).2.1.trans ?_, (h c).2.2.1.trans ?_, (h c).2.2.2⟩
  · rw [Cert.ReferenceIdeal.Read.val_main_v15_eq, a0, a1, a2]
    exact (Cert.KernelIdeal.Hand.V_v15 m c).symm
  · rw [Cert.ReferenceIdeal.Read.val_main_v20_eq, a0, a1, a3]
    exact Cert.ReferenceIdeal.Hand.v20_eq _ _ _
  · rw [Cert.ReferenceIdeal.Read.val_main_v23_eq, a0, a2, a4]
    exact Cert.ReferenceIdeal.Hand.v23_eq _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
